-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x48 : Shape := ⟨2, ![50000, 48]⟩
abbrev S2x1600000 : Shape := ⟨2, ![2, 1600000]⟩
abbrev S4x48x48 : Shape := ⟨3, ![4, 48, 48]⟩
abbrev S48 : Shape := ⟨1, ![48]⟩
abbrev S_ : Shape := ⟨0, ![]⟩

class Facts : Prop where
  bcast_S_S50000x48 : S_.BroadcastsInDim S50000x48 (![] : Fin 0 → Fin S50000x48.rank)
  reducesTo_S50000x48_S_d0_1 : S50000x48.ReducesTo [0, 1] S_
  h_S_ : 0 < S_.numel
  bcast_S_S4x48x48 : S_.BroadcastsInDim S4x48x48 (![] : Fin 0 → Fin S4x48x48.rank)
  reducesTo_S4x48x48_S_d0_1_2 : S4x48x48.ReducesTo [0, 1, 2] S_
  bcast_S_S48 : S_.BroadcastsInDim S48 (![] : Fin 0 → Fin S48.rank)
  reducesTo_S48_S_d0 : S48.ReducesTo [0] S_

variable [Facts]

def fn {F : FTy → Type} [FloatOps F] (main_arg0 : FVec F S50000x48 .f32) (main_arg1 : IVec S2x1600000 32) (main_arg2 : FVec F S4x48x48 .f32) (main_arg3 : FVec F S48 .f32) : IVec S_ 1 :=
  let main_v0 : FVec F S50000x48 .f32 := Host.absf main_arg0
  let main_cst : FVec F S_ .f32 := constant S_ .f32 0x7F800000#32
  let main_v1 : FVec F S50000x48 .f32 := broadcastInDim S50000x48 ![] bcast_S_S50000x48 main_cst
  let main_v2 : IVec S50000x48 1 := cmpf .olt main_v0 main_v1
  let main_c : IVec S_ 1 := constantI S_ 1 1#1
  let main_v3 : IVec S_ 1 := (fun x v => Host.reduce IntOp.andi x v reducesTo_S50000x48_S_d0_1 h_S_) main_v2 main_c
  let main_v4 : FVec F S4x48x48 .f32 := Host.absf main_arg2
  let main_cst_0 : FVec F S_ .f32 := constant S_ .f32 0x7F800000#32
  let main_v5 : FVec F S4x48x48 .f32 := broadcastInDim S4x48x48 ![] bcast_S_S4x48x48 main_cst_0
  let main_v6 : IVec S4x48x48 1 := cmpf .olt main_v4 main_v5
  let main_c_1 : IVec S_ 1 := constantI S_ 1 1#1
  let main_v7 : IVec S_ 1 := (fun x v => Host.reduce IntOp.andi x v reducesTo_S4x48x48_S_d0_1_2 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  main_v13
-- ==== Kernel.lean ====
abbrev S50000x48 : Shape := ⟨2, ![50000, 48]⟩
abbrev S2x1600000 : Shape := ⟨2, ![2, 1600000]⟩
abbrev S4x48x48 : Shape := ⟨3, ![4, 48, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x48 : Shape := ⟨2, ![1600000, 48]⟩
abbrev S1x50000x48 : Shape := ⟨3, ![1, 50000, 48]⟩
abbrev S4x50000x48 : Shape := ⟨3, ![4, 50000, 48]⟩
abbrev S1x48 : Shape := ⟨2, ![1, 48]⟩
abbrev S4x10000x48 : Shape := ⟨3, ![4, 10000, 48]⟩
abbrev S10000x48 : Shape := ⟨2, ![10000, 48]⟩
abbrev S1x10000x48 : Shape := ⟨3, ![1, 10000, 48]⟩
abbrev S1x48x48 : Shape := ⟨3, ![1, 48, 48]⟩
abbrev S48x48 : Shape := ⟨2, ![48, 48]⟩

abbrev nBuf : Space → Nat
  | .hbm => 105
  | .vmem => 6
  | .smem => 0
  | _ => 0

abbrev bufTy : (tb : Table) → Fin (tcTables nBuf tb) → BufTy
  | .hbm, ⟨0, _⟩ => ⟨S50000x48, .f32⟩
  | .hbm, ⟨1, _⟩ => ⟨S2x1600000, .i32⟩
  | .hbm, ⟨2, _⟩ => ⟨S4x48x48, .f32⟩
  | .hbm, ⟨3, _⟩ => ⟨S48, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1600000, .i1⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S1600000, .f32⟩
  | .hbm, ⟨31, _⟩ => ⟨S1600000, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000, .f32⟩
  | .hbm, ⟨41, _⟩ => ⟨S1600000, .f32⟩
  | .hbm, ⟨42, _⟩ => ⟨S1600000x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x48, .f32⟩
  | .hbm, ⟨52, _⟩ => ⟨S1600000x48, .f32⟩
  | .hbm, ⟨53, _⟩ => ⟨S1600000x48, .f32⟩
  | .hbm, ⟨54, _⟩ => ⟨S_, .f32⟩
  | .hbm, ⟨55, _⟩ => ⟨S50000x48, .f32⟩
  | .hbm, ⟨56, _⟩ => ⟨S1600000x1, .i32⟩
  | .hbm, ⟨57, _⟩ => ⟨S50000x48, .f32⟩
  | .hbm, ⟨58, _⟩ => ⟨S1600000x1, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x48, .f32⟩
  | .hbm, ⟨68, _⟩ => ⟨S1600000x48, .f32⟩
  | .hbm, ⟨69, _⟩ => ⟨S1600000x48, .f32⟩
  | .hbm, ⟨70, _⟩ => ⟨S_, .f32⟩
  | .hbm, ⟨71, _⟩ => ⟨S50000x48, .f32⟩
  | .hbm, ⟨72, _⟩ => ⟨S1600000x1, .i32⟩
  | .hbm, ⟨73, _⟩ => ⟨S50000x48, .f32⟩
  | .hbm, ⟨74, _⟩ => ⟨S_, .f32⟩
  | .hbm, ⟨75, _⟩ => ⟨S50000x48, .f32⟩
  | .hbm, ⟨76, _⟩ => ⟨S50000x48, .f32⟩
  | .hbm, ⟨77, _⟩ => ⟨S50000x48, .f32⟩
  | .hbm, ⟨78, _⟩ => ⟨S1600000x1, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x48, .f32⟩
  | .hbm, ⟨88, _⟩ => ⟨S1600000x48, .f32⟩
  | .hbm, ⟨89, _⟩ => ⟨S1600000x48, .f32⟩
  | .hbm, ⟨90, _⟩ => ⟨S_, .f32⟩
  | .hbm, ⟨91, _⟩ => ⟨S50000x48, .f32⟩
  | .hbm, ⟨92, _⟩ => ⟨S1600000x1, .i32⟩
  | .hbm, ⟨93, _⟩ => ⟨S50000x48, .f32⟩
  | .hbm, ⟨94, _⟩ => ⟨S_, .f32⟩
  | .hbm, ⟨95, _⟩ => ⟨S50000x48, .f32⟩
  | .hbm, ⟨96, _⟩ => ⟨S50000x48, .f32⟩
  | .hbm, ⟨97, _⟩ => ⟨S50000x48, .f32⟩
  | .hbm, ⟨98, _⟩ => ⟨S1x50000x48, .f32⟩
  | .hbm, ⟨99, _⟩ => ⟨S1x50000x48, .f32⟩
  | .hbm, ⟨100, _⟩ => ⟨S1x50000x48, .f32⟩
  | .hbm, ⟨101, _⟩ => ⟨S1x50000x48, .f32⟩
  | .hbm, ⟨102, _⟩ => ⟨S4x50000x48, .f32⟩
  | .hbm, ⟨103, _⟩ => ⟨S1x48, .f32⟩
  | .hbm, ⟨104, _⟩ => ⟨S50000x48, .f32⟩
  | .local _ .vmem, ⟨0, _⟩ => ⟨S4x10000x48, .f32⟩
  | .local _ .vmem, ⟨1, _⟩ => ⟨S4x10000x48, .f32⟩
  | .local _ .vmem, ⟨2, _⟩ => ⟨S4x48x48, .f32⟩
  | .local _ .vmem, ⟨3, _⟩ => ⟨S1x48, .f32⟩
  | .local _ .vmem, ⟨4, _⟩ => ⟨S10000x48, .f32⟩
  | .local _ .vmem, ⟨5, _⟩ => ⟨S10000x48, .f32⟩
  | _, _ => ⟨S50000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_c_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_8 : Ref sig .tc := ⟨.hbm, 59, rfl⟩
abbrev main_v45 : Ref sig .tc := ⟨.hbm, 60, rfl⟩
abbrev main_v46 : Ref sig .tc := ⟨.hbm, 61, rfl⟩
abbrev main_c_9 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_10 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_12 : Ref sig .tc := ⟨.hbm, 79, rfl⟩
abbrev main_v61 : Ref sig .tc := ⟨.hbm, 80, rfl⟩
abbrev main_v62 : Ref sig .tc := ⟨.hbm, 81, rfl⟩
abbrev main_c_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_14 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_15 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x10000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x48 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x48_0_1 : S1600000x1.BroadcastsInDim S1600000x48 (![0, 1] : Fin 2 → Fin S1600000x48.rank)
  bcast_S_S50000x48 : S_.BroadcastsInDim S50000x48 (![] : Fin 0 → Fin S50000x48.rank)
  bcast_S50000x48_S1x50000x48_1_2 : S50000x48.BroadcastsInDim S1x50000x48 (![1, 2] : Fin 2 → Fin S1x50000x48.rank)
  concatenates_S1x50000x48_S1x50000x48_S1x50000x48_S1x50000x48_S4x50000x48_d0 : Shape.Concatenates [S1x50000x48, S1x50000x48, S1x50000x48, S1x50000x48] S4x50000x48 0
  shapeCasts_S48_S1x48 : S48.ShapeCasts S1x48
  inb_S4x10000x48_S1x10000x48_0_0_0 : ∀ a, (![0, 0, 0] : Fin 3 → Nat) a + S1x10000x48.size a ≤ S4x10000x48.size a
  h_S1x10000x48 : 0 < S1x10000x48.numel
  shapeCasts_S1x10000x48_S10000x48 : S1x10000x48.ShapeCasts S10000x48
  bitsLt_bf16_f32 : FTy.bits .bf16 < FTy.bits .f32
  inb_S4x48x48_S1x48x48_0_0_0 : ∀ a, (![0, 0, 0] : Fin 3 → Nat) a + S1x48x48.size a ≤ S4x48x48.size a
  h_S1x48x48 : 0 < S1x48x48.numel
  shapeCasts_S1x48x48_S48x48 : S1x48x48.ShapeCasts S48x48
  inb_S4x10000x48_S1x10000x48_1_0_0 : ∀ a, (![1, 0, 0] : Fin 3 → Nat) a + S1x10000x48.size a ≤ S4x10000x48.size a
  inb_S4x48x48_S1x48x48_1_0_0 : ∀ a, (![1, 0, 0] : Fin 3 → Nat) a + S1x48x48.size a ≤ S4x48x48.size a
  inb_S4x10000x48_S1x10000x48_2_0_0 : ∀ a, (![2, 0, 0] : Fin 3 → Nat) a + S1x10000x48.size a ≤ S4x10000x48.size a
  inb_S4x48x48_S1x48x48_2_0_0 : ∀ a, (![2, 0, 0] : Fin 3 → Nat) a + S1x48x48.size a ≤ S4x48x48.size a
  inb_S4x10000x48_S1x10000x48_3_0_0 : ∀ a, (![3, 0, 0] : Fin 3 → Nat) a + S1x10000x48.size a ≤ S4x10000x48.size a
  inb_S4x48x48_S1x48x48_3_0_0 : ∀ a, (![3, 0, 0] : Fin 3 → Nat) a + S1x48x48.size a ≤ S4x48x48.size a
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S10000x48_S10000x48_0_0 : ∀ a, (![0, 0] : Fin 2 → Nat) a + S10000x48.size a ≤ S10000x48.size a
  h_S10000x48 : 0 < S10000x48.numel
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x48_S1600000x1_S1600000x48_1_0_n_n_0_1_148_wf : GatherDims.WF S50000x48 S1600000x1 S1600000x48 [1] [0] [] [0] [] 1 ![1, 48]
  scatter_S50000x48_S1600000x1_S1600000x48_1_0_0_1_wf : ScatterDims.WF S50000x48 S1600000x1 S1600000x48 [1] [0] [0] 1
  dot_S10000x48_S48x48_S10000x48_1_0_0_1_n_n_wf : DotDims.WF S10000x48 S48x48 S10000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x10000x48.size a ≤ S4x50000x48.size a
  hwx0_0 : ∀ i : grid0.Coords, EltTy.bits .f32 = 32 ∨ (Rect.block (s := S4x50000x48) S4x10000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x48x48.size a ≤ S4x48x48.size a
  hwx0_1 : ∀ i : grid0.Coords, EltTy.bits .f32 = 32 ∨ (Rect.block (s := S4x48x48) S4x48x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x48.size a ≤ S50000x48.size a
  hwx0_3 : ∀ i : grid0.Coords, EltTy.bits .f32 = 32 ∨ (Rect.block (s := S50000x48) S10000x48.size (cc0_transform_3 i) (hinb0_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf

abbrev win0_0 : Pipeline.Window sig grid0 :=
  Pipeline.Window.ofSpec (Memref.whole main_v80) S4x10000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x48x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v81) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v82) S10000x48.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x48 : Shape := ⟨2, ![50000, 48]⟩
abbrev S2x1600000 : Shape := ⟨2, ![2, 1600000]⟩
abbrev S4x48x48 : Shape := ⟨3, ![4, 48, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1x48x48 : Shape := ⟨3, ![1, 48, 48]⟩
abbrev S48x48 : Shape := ⟨2, ![48, 48]⟩
abbrev S1600000x48 : Shape := ⟨2, ![1600000, 48]⟩
abbrev S1x48 : Shape := ⟨2, ![1, 48]⟩

abbrev nBuf : Space → Nat
  | .hbm => 117
  | .vmem => 0
  | .smem => 0
  | _ => 0

abbrev bufTy : (tb : Table) → Fin (tcTables nBuf tb) → BufTy
  | .hbm, ⟨0, _⟩ => ⟨S50000x48, .f32⟩
  | .hbm, ⟨1, _⟩ => ⟨S2x1600000, .i32⟩
  | .hbm, ⟨2, _⟩ => ⟨S4x48x48, .f32⟩
  | .hbm, ⟨3, _⟩ => ⟨S48, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S1600000, .i1⟩
  | .hbm, ⟨9, _⟩ => ⟨S1600000, .f32⟩
  | .hbm, ⟨10, _⟩ => ⟨S_, .f32⟩
  | .hbm, ⟨11, _⟩ => ⟨S50000, .f32⟩
  | .hbm, ⟨12, _⟩ => ⟨S1600000x1, .i32⟩
  | .hbm, ⟨13, _⟩ => ⟨S50000, .f32⟩
  | .hbm, ⟨14, _⟩ => ⟨S_, .f32⟩
  | .hbm, ⟨15, _⟩ => ⟨S50000, .f32⟩
  | .hbm, ⟨16, _⟩ => ⟨S50000, .i1⟩
  | .hbm, ⟨17, _⟩ => ⟨S50000, .f32⟩
  | .hbm, ⟨18, _⟩ => ⟨S_, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S1600000, .f32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1x48x48, .f32⟩
  | .hbm, ⟨44, _⟩ => ⟨S48x48, .f32⟩
  | .hbm, ⟨45, _⟩ => ⟨S50000x48, .f32⟩
  | .hbm, ⟨46, _⟩ => ⟨S1600000x1, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x48, .f32⟩
  | .hbm, ⟨56, _⟩ => ⟨S1600000x48, .f32⟩
  | .hbm, ⟨57, _⟩ => ⟨S1600000x48, .f32⟩
  | .hbm, ⟨58, _⟩ => ⟨S_, .f32⟩
  | .hbm, ⟨59, _⟩ => ⟨S50000x48, .f32⟩
  | .hbm, ⟨60, _⟩ => ⟨S1600000x1, .i32⟩
  | .hbm, ⟨61, _⟩ => ⟨S50000x48, .f32⟩
  | .hbm, ⟨62, _⟩ => ⟨S1x48x48, .f32⟩
  | .hbm, ⟨63, _⟩ => ⟨S48x48, .f32⟩
  | .hbm, ⟨64, _⟩ => ⟨S50000x48, .f32⟩
  | .hbm, ⟨65, _⟩ => ⟨S50000x48, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x48, .f32⟩
  | .hbm, ⟨76, _⟩ => ⟨S1600000x48, .f32⟩
  | .hbm, ⟨77, _⟩ => ⟨S1600000x48, .f32⟩
  | .hbm, ⟨78, _⟩ => ⟨S_, .f32⟩
  | .hbm, ⟨79, _⟩ => ⟨S50000x48, .f32⟩
  | .hbm, ⟨80, _⟩ => ⟨S1600000x1, .i32⟩
  | .hbm, ⟨81, _⟩ => ⟨S50000x48, .f32⟩
  | .hbm, ⟨82, _⟩ => ⟨S_, .f32⟩
  | .hbm, ⟨83, _⟩ => ⟨S50000x48, .f32⟩
  | .hbm, ⟨84, _⟩ => ⟨S50000x48, .f32⟩
  | .hbm, ⟨85, _⟩ => ⟨S50000x48, .f32⟩
  | .hbm, ⟨86, _⟩ => ⟨S1x48x48, .f32⟩
  | .hbm, ⟨87, _⟩ => ⟨S48x48, .f32⟩
  | .hbm, ⟨88, _⟩ => ⟨S50000x48, .f32⟩
  | .hbm, ⟨89, _⟩ => ⟨S50000x48, .f32⟩
  | .hbm, ⟨90, _⟩ => ⟨S1600000x1, .f32⟩
  | .hbm, ⟨91, _⟩ => ⟨S_, .i32⟩
  | .hbm, ⟨92, _⟩ => ⟨S1600000, .i32⟩
  | .hbm, ⟨93, _⟩ => ⟨S1600000, .i1⟩
  | .hbm, ⟨94, _⟩ => ⟨S_, .i32⟩
  | .hbm, ⟨95, _⟩ => ⟨S1600000, .i32⟩
  | .hbm, ⟨96, _⟩ => ⟨S1600000, .i32⟩
  | .hbm, ⟨97, _⟩ => ⟨S1600000, .i32⟩
  | .hbm, ⟨98, _⟩ => ⟨S1600000x1, .i32⟩
  | .hbm, ⟨99, _⟩ => ⟨S1600000x48, .f32⟩
  | .hbm, ⟨100, _⟩ => ⟨S1600000x48, .f32⟩
  | .hbm, ⟨101, _⟩ => ⟨S1600000x48, .f32⟩
  | .hbm, ⟨102, _⟩ => ⟨S_, .f32⟩
  | .hbm, ⟨103, _⟩ => ⟨S50000x48, .f32⟩
  | .hbm, ⟨104, _⟩ => ⟨S1600000x1, .i32⟩
  | .hbm, ⟨105, _⟩ => ⟨S50000x48, .f32⟩
  | .hbm, ⟨106, _⟩ => ⟨S_, .f32⟩
  | .hbm, ⟨107, _⟩ => ⟨S50000x48, .f32⟩
  | .hbm, ⟨108, _⟩ => ⟨S50000x48, .f32⟩
  | .hbm, ⟨109, _⟩ => ⟨S50000x48, .f32⟩
  | .hbm, ⟨110, _⟩ => ⟨S1x48x48, .f32⟩
  | .hbm, ⟨111, _⟩ => ⟨S48x48, .f32⟩
  | .hbm, ⟨112, _⟩ => ⟨S50000x48, .f32⟩
  | .hbm, ⟨113, _⟩ => ⟨S50000x48, .f32⟩
  | .hbm, ⟨114, _⟩ => ⟨S1x48, .f32⟩
  | .hbm, ⟨115, _⟩ => ⟨S50000x48, .f32⟩
  | .hbm, ⟨116, _⟩ => ⟨S50000x48, .f32⟩
  | _, _ => ⟨S50000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_5 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_c_8 : Ref sig .tc := ⟨.hbm, 67, rfl⟩
abbrev main_v51 : Ref sig .tc := ⟨.hbm, 68, rfl⟩
abbrev main_v52 : Ref sig .tc := ⟨.hbm, 69, rfl⟩
abbrev main_c_9 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_11 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_12 : Ref sig .tc := ⟨.hbm, 91, rfl⟩
abbrev main_v71 : Ref sig .tc := ⟨.hbm, 92, rfl⟩
abbrev main_v72 : Ref sig .tc := ⟨.hbm, 93, rfl⟩
abbrev main_c_13 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_14 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_15 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S4x48x48_S1x48x48_0_0_0 : S4x48x48.Slices ![0, 0, 0] S1x48x48
  shapeCasts_S1x48x48_S48x48 : S1x48x48.ShapeCasts S48x48
  bcast_S1600000x1_S1600000x48_0_1 : S1600000x1.BroadcastsInDim S1600000x48 (![0, 1] : Fin 2 → Fin S1600000x48.rank)
  bcast_S_S50000x48 : S_.BroadcastsInDim S50000x48 (![] : Fin 0 → Fin S50000x48.rank)
  slices_S4x48x48_S1x48x48_1_0_0 : S4x48x48.Slices ![1, 0, 0] S1x48x48
  slices_S4x48x48_S1x48x48_2_0_0 : S4x48x48.Slices ![2, 0, 0] S1x48x48
  slices_S4x48x48_S1x48x48_3_0_0 : S4x48x48.Slices ![3, 0, 0] S1x48x48
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S50000x48_S48x48_S50000x48_1_0_0_1_n_n_wf : DotDims.WF S50000x48 S48x48 S50000x48 [1] [0] [0] [1] [] []
  gather_S50000x48_S1600000x1_S1600000x48_1_0_n_n_0_1_148_wf : GatherDims.WF S50000x48 S1600000x1 S1600000x48 [1] [0] [] [0] [] 1 ![1, 48]
  scatter_S50000x48_S1600000x1_S1600000x48_1_0_0_1_wf : ScatterDims.WF S50000x48 S1600000x1 S1600000x48 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S50000x48_S48x48_S50000x48_1_0_0_1_n_n : DotDims S50000x48 S48x48 S50000x48 where
  lhsContracting := [1]
  rhsContracting := [0]
  lhsNonContracting := [0]
  rhsNonContracting := [1]
  lhsBatch := []
  rhsBatch := []
  wf := dot_S50000x48_S48x48_S50000x48_1_0_0_1_n_n_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf

class Facts : Prop extends Facts₀ where

variable [Facts]
-- ==== Proof.KernelRegion.lean ====
import proofs.«177583_j3908420239973_1_alg».proof.Proof.Gen.Kernel.Launch
import proofs.«177583_j3908420239973_1_alg».proof.Proof.Gen.Kernel.Skeleton
import proofs.«177583_j3908420239973_1_alg».proof.Proof.Gen.Kernel.Points
import Idealize.ShloMosaic.Lib.Pipeline.FrameBody
import Idealize.ShloMosaic.Lib.Ring
import Idealize.ShloMosaic.Lib.Tactic

/-!
# The combine region of `Kernel`: it runs to the end, and what it leaves

@main is a host prefix (the Chebyshev terms, stacked into one array of shape 4 × 50000 × 48, and the bias as a
row), then ONE region over five row blocks of 10000 rows.  At a block the body reads the four 10000 × 48
slabs of the stacked array, the four 48 × 48 weight matrices and the bias row, and stores
`((((0 + T₀·W₀) + T₁·W₁) + T₂·W₂) + T₃·W₃) + bias` over the whole 10000 × 48 output block.

Stated here, at any float instance: the contents of every buffer when the region is entered (`atEntry`), the
output block as one term of the three input blocks (`blockOut`), the body's triple, the data the launch theorem
takes, the run with every array named, and the frame (the argument arrays end as launched).
-/

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch memory after the three stretches of host
    operations (before the outlined select, the select, after it). -/
abbrev atEntry (c : Dev nD) (b : Ref sig .tc) : Buf (Elt F) ((c : Thread nD τ).loc b) :=
  StableHlo.after (List.flatten [hostOps0, hostOps0_1, hostOps0_2]) (fun b => m (c, b)) b

/-- No host operation allocates. -/
theorem stretch0_fresh : (hostOps0 : List (HloOp τ sig (Elt F))).Forall fun op => op.fresh = ∅ := by
  simp only [List.Forall]; repeat' constructor
theorem stretch1_fresh : (hostOps0_1 : List (HloOp τ sig (Elt F))).Forall fun op => op.fresh = ∅ := by
  simp only [List.Forall]; repeat' constructor
theorem stretch2_fresh : (hostOps0_2 : List (HloOp τ sig (Elt F))).Forall fun op => op.fresh = ∅ := by
  simp only [List.Forall]; repeat' constructor

/-- @main is the three stretches and then the region, entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_fresh, stretch1_fresh, stretch2_fresh⟩) main_chain

/-- A buffer no host operation writes is found as launched. -/
theorem atEntry_of_unwritten (c : Dev nD) (b : Ref sig .tc)
    (h : ∀ op ∈ (List.flatten [hostOps0, hostOps0_1, hostOps0_2] : List (HloOp τ sig (Elt F))), Proc.devRef .tc b ∉ op.writes) :
    atEntry m c b = m ((c : Thread nD τ).loc b) :=
  StableHlo.after_of_forall_not_mem (b := Proc.devRef .tc b) _ _ h

set_option maxHeartbeats 4000000 in
/-- The four argument arrays are written by no host operation. -/
theorem entry_x (c : Dev nD) : atEntry m c main_arg0 = m ((c : Thread nD τ).loc main_arg0) :=
  atEntry_of_unwritten m c main_arg0 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem entry_edges (c : Dev nD) : atEntry m c main_arg1 = m ((c : Thread nD τ).loc main_arg1) :=
  atEntry_of_unwritten m c main_arg1 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem entry_weights (c : Dev nD) : atEntry m c main_arg2 = m ((c : Thread nD τ).loc main_arg2) :=
  atEntry_of_unwritten m c main_arg2 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem entry_bias (c : Dev nD) : atEntry m c main_arg3 = m ((c : Thread nD τ).loc main_arg3) :=
  atEntry_of_unwritten m c main_arg3 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The blocks the body is handed -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's staging buffer holds its block at every point, whether the point fetches it or not (the
    weights and the bias are fetched once: their block index never moves). -/
theorem in0_holds {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem in1_holds {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem in2_holds {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- Slab `k` of the stacked block, matrix `k` of the weights, the bias row, the output block: the rectangles the
    body loads and stores through. -/
abbrev slab0 : Rect S4x10000x48 := Rect.unit (s := S4x10000x48) ![0, 0, 0] S1x10000x48.size inb_S4x10000x48_S1x10000x48_0_0_0
abbrev slab1 : Rect S4x10000x48 := Rect.unit (s := S4x10000x48) ![1, 0, 0] S1x10000x48.size inb_S4x10000x48_S1x10000x48_1_0_0
abbrev slab2 : Rect S4x10000x48 := Rect.unit (s := S4x10000x48) ![2, 0, 0] S1x10000x48.size inb_S4x10000x48_S1x10000x48_2_0_0
abbrev slab3 : Rect S4x10000x48 := Rect.unit (s := S4x10000x48) ![3, 0, 0] S1x10000x48.size inb_S4x10000x48_S1x10000x48_3_0_0
abbrev mat0 : Rect S4x48x48 := Rect.unit (s := S4x48x48) ![0, 0, 0] S1x48x48.size inb_S4x48x48_S1x48x48_0_0_0
abbrev mat1 : Rect S4x48x48 := Rect.unit (s := S4x48x48) ![1, 0, 0] S1x48x48.size inb_S4x48x48_S1x48x48_1_0_0
abbrev mat2 : Rect S4x48x48 := Rect.unit (s := S4x48x48) ![2, 0, 0] S1x48x48.size inb_S4x48x48_S1x48x48_2_0_0
abbrev mat3 : Rect S4x48x48 := Rect.unit (s := S4x48x48) ![3, 0, 0] S1x48x48.size inb_S4x48x48_S1x48x48_3_0_0
abbrev biasRow : Rect S1x48 := Rect.unit (s := S1x48) ![0, 0] S1x48.size inb_S1x48_S1x48_0_0
abbrev outAll : Rect S10000x48 := Rect.unit (s := S10000x48) ![0, 0] S10000x48.size inb_S10000x48_S10000x48_0_0

/-- What the body stores, as one term of the three input blocks: the bias added to the running sum of the four
    slab-by-matrix products (the payload names are the skeleton's). -/
def stored (x0 : Vec F S4x10000x48 .f32) (x1 : Vec F S4x48x48 .f32) (x2 : Vec F S1x48 .f32) : FVec F S10000x48 .f32 :=
  k0_pay1 (k0_pay2 (View.ld x0 slab0) (View.ld x1 mat0) (View.ld x0 slab1) (View.ld x1 mat1) (View.ld x0 slab2) (View.ld x1 mat2))
    (k0_pay3 (View.ld x0 slab3)) (k0_pay4 (View.ld x1 mat3)) (View.ld x2 biasRow)

/-- The output block after the body: its one store, which covers it. -/
def blockOut (x0 : Vec F S4x10000x48 .f32) (x1 : Vec F S4x48x48 .f32) (x2 : Vec F S1x48 .f32) : Vec F S10000x48 .f32 :=
  View.canon [⟨outAll, stored x0 x1 x2⟩]

theorem outAll_covers (p0 : Vec F S10000x48 .f32) (y : S10000x48.Idx) :
    ∃ pc ∈ ([⟨outAll, p0⟩] : List (View.Piece (Elt F) S10000x48 .f32)), y ∈ pc.1.set :=
  View.cover_of_tiled [⟨outAll, p0⟩] S10000x48.size (by rfl) y

set_option maxHeartbeats 2000000 in
/-- The body on whole staging buffers, the inputs' at `x0 x1 x2` and the output's at anything: it ends with the
    inputs' as they were and the output's at `blockOut`. -/
theorem body_triple (c : Dev nD) (E : Set ℕ) (i : grid0.Coords) (arg1 : Memref sig .tc .vmem S4x10000x48 .f32) (harg1 : arg1.IsWhole) (arg2 : Memref sig .tc .vmem S4x48x48 .f32) (harg2 : arg2.IsWhole) (arg3 : Memref sig .tc .vmem S1x48 .f32) (harg3 : arg3.IsWhole) (arg4 : Memref sig .tc .vmem S10000x48 .f32) (harg4 : arg4.IsWhole)
    (x0 : Vec F S4x10000x48 .f32) (x1 : Vec F S4x48x48 .f32) (x2 : Vec F S1x48 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (blockOut x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outAll_covers _)

/-! ## The data the launch theorem takes -/

/-- Core `c`'s proof data: the arrays as the region finds them; after the body at point `t` each input buffer at its
    block and the output buffer at `blockOut` of the three; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockOut (blockAt m c 0 t) (blockAt m c 1 t) (blockAt m c 2 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_out (c : Dev nD) (t : Fin cfg0.N) :
    (dats m 0 c).after 3 t = blockOut (blockAt m c 0 t) (blockAt m c 1 t) (blockAt m c 2 t) := by dsimp only [dats]

theorem before_in0 (c : Dev nD) (t : Fin cfg0.N) (d) : (dats m 0 c).before 0 t d = blockAt m c 0 t :=
  in0_holds m (dats m 0 c) (dats_A m c 0) (after_in0 m c) t d
theorem before_in1 (c : Dev nD) (t : Fin cfg0.N) (d) : (dats m 0 c).before 1 t d = blockAt m c 1 t :=
  in1_holds m (dats m 0 c) (dats_A m c 1) (after_in1 m c) t d
theorem before_in2 (c : Dev nD) (t : Fin cfg0.N) (d) : (dats m 0 c).before 2 t d = blockAt m c 2 t :=
  in2_holds m (dats m 0 c) (dats_A m c 2) (after_in2 m c) t d

/-- What the pipeline calls the body with at point `t`, window by window, -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it takes back. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the triple applies; the invariant and what the
    core owes pass through unread. -/
theorem body_at_point (c : Dev nD) (t : Fin cfg0.N) :
    callPre m c t ⊢ wp frame (wpE (defs₀ (F := F)) Variants.none c none) Set.univ (bodyAt0 t) (fun _ => callPost m c t) := by
  unfold callPre callPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, every array of the region at what the library computes from
    the proof data and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := dats_A m) (hΦ := fun _ _ => rfl)

/-- The frame: the four argument arrays end as launched.  The weights are window 1's array, an input, which
    the region leaves as it found it; the other three bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (entry_x m c),
      ((h c).2 main_arg1 (Pipeline.mem_restRefs_of main_arg1 (by decide) (by decide))).trans (entry_edges m c),
      ((h c).1 1).trans ((((dats m) 0 c).arrAt_in 1 rfl _).trans ((dats_A m c 1).trans (entry_weights m c))),
      ((h c).2 main_arg3 (Pipeline.mem_restRefs_of main_arg3 (by decide) (by decide))).trans (entry_bias m c)⟩) (run_main m ρ)

end Cert.Kernel.Region

end
-- ==== Proof.KernelIdealRegion.lean ====
import proofs.«177583_j3908420239973_1_alg».proof.Proof.Gen.KernelIdeal.Launch
import proofs.«177583_j3908420239973_1_alg».proof.Proof.Gen.KernelIdeal.Skeleton
import proofs.«177583_j3908420239973_1_alg».proof.Proof.Gen.KernelIdeal.Points
import Idealize.ShloMosaic.Lib.Pipeline.FrameBody
import Idealize.ShloMosaic.Lib.Ring
import Idealize.ShloMosaic.Lib.Tactic

/-!
# The combine region of `KernelIdeal`: it runs to the end, and what it leaves

@main is a host prefix (the Chebyshev terms, stacked into one array of shape 4 × 50000 × 48, and the bias as a
row), then ONE region over five row blocks of 10000 rows.  At a block the body reads the four 10000 × 48
slabs of the stacked array, the four 48 × 48 weight matrices and the bias row, and stores
`((((0 + T₀·W₀) + T₁·W₁) + T₂·W₂) + T₃·W₃) + bias` over the whole 10000 × 48 output block.

Stated here, at any float instance: the contents of every buffer when the region is entered (`atEntry`), the
output block as one term of the three input blocks (`blockOut`), the body's triple, the data the launch theorem
takes, the run with every array named, and the frame (the argument arrays end as launched).
-/

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- What core `c`'s buffers hold when the region is entered: the launch memory after the three stretches of host
    operations (before the outlined select, the select, after it). -/
abbrev atEntry (c : Dev nD) (b : Ref sig .tc) : Buf (Elt F) ((c : Thread nD τ).loc b) :=
  StableHlo.after (List.flatten [hostOps0, hostOps0_1, hostOps0_2]) (fun b => m (c, b)) b

/-- No host operation allocates. -/
theorem stretch0_fresh : (hostOps0 : List (HloOp τ sig (Elt F))).Forall fun op => op.fresh = ∅ := by
  simp only [List.Forall]; repeat' constructor
theorem stretch1_fresh : (hostOps0_1 : List (HloOp τ sig (Elt F))).Forall fun op => op.fresh = ∅ := by
  simp only [List.Forall]; repeat' constructor
theorem stretch2_fresh : (hostOps0_2 : List (HloOp τ sig (Elt F))).Forall fun op => op.fresh = ∅ := by
  simp only [List.Forall]; repeat' constructor

/-- @main is the three stretches and then the region, entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨stretch0_fresh, stretch1_fresh, stretch2_fresh⟩) main_chain

/-- A buffer no host operation writes is found as launched. -/
theorem atEntry_of_unwritten (c : Dev nD) (b : Ref sig .tc)
    (h : ∀ op ∈ (List.flatten [hostOps0, hostOps0_1, hostOps0_2] : List (HloOp τ sig (Elt F))), Proc.devRef .tc b ∉ op.writes) :
    atEntry m c b = m ((c : Thread nD τ).loc b) :=
  StableHlo.after_of_forall_not_mem (b := Proc.devRef .tc b) _ _ h

set_option maxHeartbeats 4000000 in
/-- The four argument arrays are written by no host operation. -/
theorem entry_x (c : Dev nD) : atEntry m c main_arg0 = m ((c : Thread nD τ).loc main_arg0) :=
  atEntry_of_unwritten m c main_arg0 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem entry_edges (c : Dev nD) : atEntry m c main_arg1 = m ((c : Thread nD τ).loc main_arg1) :=
  atEntry_of_unwritten m c main_arg1 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem entry_weights (c : Dev nD) : atEntry m c main_arg2 = m ((c : Thread nD τ).loc main_arg2) :=
  atEntry_of_unwritten m c main_arg2 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))
set_option maxHeartbeats 4000000 in
theorem entry_bias (c : Dev nD) : atEntry m c main_arg3 = m ((c : Thread nD τ).loc main_arg3) :=
  atEntry_of_unwritten m c main_arg3 (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes,
      StableHlo.reshape_writes, StableHlo.nary_writes, Finset.mem_singleton]
    repeat' apply And.intro
    all_goals exact StableHlo.devRef_ne_of_ne (by decide)))

/-! ## The blocks the body is handed -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's staging buffer holds its block at every point, whether the point fetches it or not (the
    weights and the bias are fetched once: their block index never moves). -/
theorem in0_holds {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem in1_holds {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem in2_holds {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- Slab `k` of the stacked block, matrix `k` of the weights, the bias row, the output block: the rectangles the
    body loads and stores through. -/
abbrev slab0 : Rect S4x10000x48 := Rect.unit (s := S4x10000x48) ![0, 0, 0] S1x10000x48.size inb_S4x10000x48_S1x10000x48_0_0_0
abbrev slab1 : Rect S4x10000x48 := Rect.unit (s := S4x10000x48) ![1, 0, 0] S1x10000x48.size inb_S4x10000x48_S1x10000x48_1_0_0
abbrev slab2 : Rect S4x10000x48 := Rect.unit (s := S4x10000x48) ![2, 0, 0] S1x10000x48.size inb_S4x10000x48_S1x10000x48_2_0_0
abbrev slab3 : Rect S4x10000x48 := Rect.unit (s := S4x10000x48) ![3, 0, 0] S1x10000x48.size inb_S4x10000x48_S1x10000x48_3_0_0
abbrev mat0 : Rect S4x48x48 := Rect.unit (s := S4x48x48) ![0, 0, 0] S1x48x48.size inb_S4x48x48_S1x48x48_0_0_0
abbrev mat1 : Rect S4x48x48 := Rect.unit (s := S4x48x48) ![1, 0, 0] S1x48x48.size inb_S4x48x48_S1x48x48_1_0_0
abbrev mat2 : Rect S4x48x48 := Rect.unit (s := S4x48x48) ![2, 0, 0] S1x48x48.size inb_S4x48x48_S1x48x48_2_0_0
abbrev mat3 : Rect S4x48x48 := Rect.unit (s := S4x48x48) ![3, 0, 0] S1x48x48.size inb_S4x48x48_S1x48x48_3_0_0
abbrev biasRow : Rect S1x48 := Rect.unit (s := S1x48) ![0, 0] S1x48.size inb_S1x48_S1x48_0_0
abbrev outAll : Rect S10000x48 := Rect.unit (s := S10000x48) ![0, 0] S10000x48.size inb_S10000x48_S10000x48_0_0

/-- What the body stores, as one term of the three input blocks: the bias added to the running sum of the four
    slab-by-matrix products (the payload names are the skeleton's). -/
def stored (x0 : Vec F S4x10000x48 .f32) (x1 : Vec F S4x48x48 .f32) (x2 : Vec F S1x48 .f32) : FVec F S10000x48 .f32 :=
  k0_pay1 (k0_pay2 (View.ld x0 slab0) (View.ld x1 mat0) (View.ld x0 slab1) (View.ld x1 mat1) (View.ld x0 slab2) (View.ld x1 mat2))
    (k0_pay3 (View.ld x0 slab3)) (k0_pay4 (View.ld x1 mat3)) (View.ld x2 biasRow)

/-- The output block after the body: its one store, which covers it. -/
def blockOut (x0 : Vec F S4x10000x48 .f32) (x1 : Vec F S4x48x48 .f32) (x2 : Vec F S1x48 .f32) : Vec F S10000x48 .f32 :=
  View.canon [⟨outAll, stored x0 x1 x2⟩]

theorem outAll_covers (p0 : Vec F S10000x48 .f32) (y : S10000x48.Idx) :
    ∃ pc ∈ ([⟨outAll, p0⟩] : List (View.Piece (Elt F) S10000x48 .f32)), y ∈ pc.1.set :=
  View.cover_of_tiled [⟨outAll, p0⟩] S10000x48.size (by rfl) y

set_option maxHeartbeats 2000000 in
/-- The body on whole staging buffers, the inputs' at `x0 x1 x2` and the output's at anything: it ends with the
    inputs' as they were and the output's at `blockOut`. -/
theorem body_triple (c : Dev nD) (E : Set ℕ) (i : grid0.Coords) (arg1 : Memref sig .tc .vmem S4x10000x48 .f32) (harg1 : arg1.IsWhole) (arg2 : Memref sig .tc .vmem S4x48x48 .f32) (harg2 : arg2.IsWhole) (arg3 : Memref sig .tc .vmem S1x48 .f32) (harg3 : arg3.IsWhole) (arg4 : Memref sig .tc .vmem S10000x48 .f32) (harg4 : arg4.IsWhole)
    (x0 : Vec F S4x10000x48 .f32) (x1 : Vec F S4x48x48 .f32) (x2 : Vec F S1x48 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (blockOut x0 x1 x2)) -∗ K ⟨⟩))
      ⊢ wp frame (wpE (defs₀ (F := F)) Variants.none c none) E (cc0__combine_kernel i arg1 harg1 arg2 harg2 arg3 harg3 arg4 harg4) K := by
  simp only [cc0__combine_kernel_eq_skeleton]; unfold cc0__combine_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outAll_covers _)

/-! ## The data the launch theorem takes -/

/-- Core `c`'s proof data: the arrays as the region finds them; after the body at point `t` each input buffer at its
    block and the output buffer at `blockOut` of the three; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockOut (blockAt m c 0 t) (blockAt m c 1 t) (blockAt m c 2 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_out (c : Dev nD) (t : Fin cfg0.N) :
    (dats m 0 c).after 3 t = blockOut (blockAt m c 0 t) (blockAt m c 1 t) (blockAt m c 2 t) := by dsimp only [dats]

theorem before_in0 (c : Dev nD) (t : Fin cfg0.N) (d) : (dats m 0 c).before 0 t d = blockAt m c 0 t :=
  in0_holds m (dats m 0 c) (dats_A m c 0) (after_in0 m c) t d
theorem before_in1 (c : Dev nD) (t : Fin cfg0.N) (d) : (dats m 0 c).before 1 t d = blockAt m c 1 t :=
  in1_holds m (dats m 0 c) (dats_A m c 1) (after_in1 m c) t d
theorem before_in2 (c : Dev nD) (t : Fin cfg0.N) (d) : (dats m 0 c).before 2 t d = blockAt m c 2 t :=
  in2_holds m (dats m 0 c) (dats_A m c 2) (after_in2 m c) t d

/-- What the pipeline calls the body with at point `t`, window by window, -/
def callPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it takes back. -/
def callPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the triple applies; the invariant and what the
    core owes pass through unread. -/
theorem body_at_point (c : Dev nD) (t : Fin cfg0.N) :
    callPre m c t ⊢ wp frame (wpE (defs₀ (F := F)) Variants.none c none) Set.univ (bodyAt0 t) (fun _ => callPost m c t) := by
  unfold callPre callPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_out]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, every array of the region at what the library computes from
    the proof data and every other unscoped buffer as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_to_region m Variants.none) (hA := dats_A m) (hΦ := fun _ _ => rfl)

/-- The frame: the four argument arrays end as launched.  The weights are window 1's array, an input, which
    the region leaves as it found it; the other three bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (Pipeline.mem_restRefs_of main_arg0 (by decide) (by decide))).trans (entry_x m c),
      ((h c).2 main_arg1 (Pipeline.mem_restRefs_of main_arg1 (by decide) (by decide))).trans (entry_edges m c),
      ((h c).1 1).trans ((((dats m) 0 c).arrAt_in 1 rfl _).trans ((dats_A m c 1).trans (entry_weights m c))),
      ((h c).2 main_arg3 (Pipeline.mem_restRefs_of main_arg3 (by decide) (by decide))).trans (entry_bias m c)⟩) (run_main m ρ)

end Cert.KernelIdeal.Region

end
-- ==== Proof.KernelIdealValue.lean ====
import proofs.«177583_j3908420239973_1_alg».proof.Proof.KernelIdealRegion
import Idealize.ShloMosaic.Lib.Pipeline.Value
import Idealize.ShloMosaic.Lib.ValueIdx
import Idealize.ShloMosaic.Lib.ValueLayout
import Idealize.ShloMosaic.PureOps.Ideal.Laws

/-!
# What the combine region leaves in its output array, over the extended reals

At `Ideal` a change of float format is the identity and the matrix unit's product into a zero accumulator is the plain
sum over the contracted axis.  So the block the body stores at row block `t` is, at local row `r` and column `j`,
`((((0 + ∑ₖ S(0,r,k)·W(0,k,j)) + ∑ₖ S(1,r,k)·W(1,k,j)) + ∑ₖ S(2,r,k)·W(2,k,j)) + ∑ₖ S(3,r,k)·W(3,k,j)) + b(0,j)`
of the stacked block `S`, the weights `W` and the bias row `b`; block `t` of the stacked array is rows
`10000·t … 10000·t + 9999` of each of its four slabs, and the five blocks tile the 50000 rows.  Hence the output array
after the run is `combine` of the stacked array, the weights and the bias row as the region finds them.
-/

set_option maxRecDepth 16384

noncomputable section

namespace Cert.KernelIdeal.Combine

open Cert.KernelIdeal Cert.KernelIdeal.Gen Cert.KernelIdeal.Region
open Idealize.ShloMosaic Idealize.ShloMosaic.TcCoe Idealize.SL.Sem
open Idealize.ShloMosaic.ValueIdx

/-! ## The function -/

/-- Row `n`, column `j` of the combination: the four slab-by-matrix products summed from zero, slab 0 first, then the
    bias. -/
def combineAt (T : S4x50000x48.Idx → EReal) (W : S4x48x48.Idx → EReal) (b : S1x48.Idx → EReal) (n : Fin 50000) (j : Fin 48) : EReal :=
  ((((0 + ∑ k : Fin 48, T (ix3 (0 : Fin 4) n k) * W (ix3 (0 : Fin 4) k j))
      + ∑ k : Fin 48, T (ix3 (1 : Fin 4) n k) * W (ix3 (1 : Fin 4) k j))
      + ∑ k : Fin 48, T (ix3 (2 : Fin 4) n k) * W (ix3 (2 : Fin 4) k j))
      + ∑ k : Fin 48, T (ix3 (3 : Fin 4) n k) * W (ix3 (3 : Fin 4) k j))
    + b (ix2 (0 : Fin 1) j)

/-- The whole array. -/
def combine (T : S4x50000x48.Idx → EReal) (W : S4x48x48.Idx → EReal) (b : S1x48.Idx → EReal) : S50000x48.Idx → EReal :=
  fun i => combineAt T W b ⟨(i 0).val, (i 0).isLt⟩ ⟨(i 1).val, (i 1).isLt⟩

/-! ## The body's product at an index -/

theorem lhs_ax0 (i : S10000x48.Idx) (q : dot_S10000x48_S48x48_S10000x48_1_0_0_1_n_n.contr.Idx) :
    (dot_S10000x48_S48x48_S10000x48_1_0_0_1_n_n.lhsIdx i q 0).val = (i 0).val := by
  unfold DotDims.lhsIdx
  rw [dif_neg (show ¬(0 : Fin S10000x48.rank) ∈ dot_S10000x48_S48x48_S10000x48_1_0_0_1_n_n.lhsBatch by decide), dif_pos (show (0 : Fin S10000x48.rank) ∈ dot_S10000x48_S48x48_S10000x48_1_0_0_1_n_n.lhsNonContracting by decide)]
  rfl
theorem lhs_ax1 (i : S10000x48.Idx) (q : dot_S10000x48_S48x48_S10000x48_1_0_0_1_n_n.contr.Idx) :
    (dot_S10000x48_S48x48_S10000x48_1_0_0_1_n_n.lhsIdx i q 1).val = (q ⟨0, by decide⟩).val :=
  dot_S10000x48_S48x48_S10000x48_1_0_0_1_n_n.lhsIdx_val_of_single rfl i q
theorem rhs_ax0 (i : S10000x48.Idx) (q : dot_S10000x48_S48x48_S10000x48_1_0_0_1_n_n.contr.Idx) :
    (dot_S10000x48_S48x48_S10000x48_1_0_0_1_n_n.rhsIdx i q 0).val = (q ⟨0, by decide⟩).val :=
  dot_S10000x48_S48x48_S10000x48_1_0_0_1_n_n.rhsIdx_val_of_single rfl i q
theorem rhs_ax1 (i : S10000x48.Idx) (q : dot_S10000x48_S48x48_S10000x48_1_0_0_1_n_n.contr.Idx) :
    (dot_S10000x48_S48x48_S10000x48_1_0_0_1_n_n.rhsIdx i q 1).val = (i 1).val := by
  unfold DotDims.rhsIdx
  rw [dif_neg (show ¬(1 : Fin S48x48.rank) ∈ dot_S10000x48_S48x48_S10000x48_1_0_0_1_n_n.rhsBatch by decide), dif_pos (show (1 : Fin S48x48.rank) ∈ dot_S10000x48_S48x48_S10000x48_1_0_0_1_n_n.rhsNonContracting by decide)]
  rfl

/-- A 10000 × 48 block times a 48 × 48 matrix into the zero accumulator, at row `r` and column `j`: the sum over
    the 48 contracted positions. -/
theorem product_at {φ₁ φ₂ : FTy} (l : FVec Ideal S10000x48 φ₁) (w : FVec Ideal S48x48 φ₂) (r : Fin 10000) (j : Fin 48) :
    matmul dot_S10000x48_S48x48_S10000x48_1_0_0_1_n_n none l w (constant S10000x48 .f32 0x00000000#32) (ix2 r j)
      = ∑ k : Fin 48, l (ix2 r k) * w (ix2 k j) := by
  show FloatOps.matmul _ _ _ _ _ _ = _
  rw [Ideal.matmul_constant_zero_apply, ← Equiv.sum_comp (ValueIdx.contrEquiv1 dot_S10000x48_S48x48_S10000x48_1_0_0_1_n_n 48 rfl rfl).symm]
  refine Finset.sum_congr rfl fun k _ => ?_
  have hk := ValueIdx.contrEquiv1_symm_val dot_S10000x48_S48x48_S10000x48_1_0_0_1_n_n 48 rfl rfl k
  have el : dot_S10000x48_S48x48_S10000x48_1_0_0_1_n_n.lhsIdx (ix2 r j) ((ValueIdx.contrEquiv1 dot_S10000x48_S48x48_S10000x48_1_0_0_1_n_n 48 rfl rfl).symm k) = ix2 r k := funext fun a => Fin.ext (by
    match a with
    | ⟨0, _⟩ => exact lhs_ax0 _ _
    | ⟨1, _⟩ => exact (lhs_ax1 _ _).trans hk)
  have er : dot_S10000x48_S48x48_S10000x48_1_0_0_1_n_n.rhsIdx (ix2 r j) ((ValueIdx.contrEquiv1 dot_S10000x48_S48x48_S10000x48_1_0_0_1_n_n 48 rfl rfl).symm k) = ix2 k j := funext fun a => Fin.ext (by
    match a with
    | ⟨0, _⟩ => exact (rhs_ax0 _ _).trans hk
    | ⟨1, _⟩ => exact rhs_ax1 _ _)
  rw [el, er]

/-! ## The stored block at an index -/

/-- Slab `s` of a stacked block, read through its rectangle at local row `r` and position `k`. -/
theorem slab_at (x0 : Vec Ideal S4x10000x48 .f32) (s : Fin 4) (inb : ∀ a, (![s.val, 0, 0] : Fin 3 → Nat) a + S1x10000x48.size a ≤ S4x10000x48.size a)
    (r : Fin 10000) (k : Fin 48) :
    View.ld x0 (Rect.unit (s := S4x10000x48) ![s.val, 0, 0] S1x10000x48.size inb) (ix3 (0 : Fin 1) r k) = x0 (ix3 s r k) := by
  show x0 ((Rect.unit (s := S4x10000x48) ![s.val, 0, 0] S1x10000x48.size inb).emb (ix3 (0 : Fin 1) r k)) = _
  refine congrArg x0 (funext fun a => Fin.ext ?_)
  match a with
  | ⟨0, _⟩ => show s.val + 1 * 0 = s.val; omega
  | ⟨1, _⟩ => show 0 + 1 * r.val = r.val; omega
  | ⟨2, _⟩ => show 0 + 1 * k.val = k.val; omega

/-- Matrix `s` of the weights, read through its rectangle at row `k` and column `j`. -/
theorem mat_at (x1 : Vec Ideal S4x48x48 .f32) (s : Fin 4) (inb : ∀ a, (![s.val, 0, 0] : Fin 3 → Nat) a + S1x48x48.size a ≤ S4x48x48.size a)
    (k : Fin 48) (j : Fin 48) :
    View.ld x1 (Rect.unit (s := S4x48x48) ![s.val, 0, 0] S1x48x48.size inb) (ix3 (0 : Fin 1) k j) = x1 (ix3 s k j) := by
  show x1 ((Rect.unit (s := S4x48x48) ![s.val, 0, 0] S1x48x48.size inb).emb (ix3 (0 : Fin 1) k j)) = _
  refine congrArg x1 (funext fun a => Fin.ext ?_)
  match a with
  | ⟨0, _⟩ => show s.val + 1 * 0 = s.val; omega
  | ⟨1, _⟩ => show 0 + 1 * k.val = k.val; omega
  | ⟨2, _⟩ => show 0 + 1 * j.val = j.val; omega

/-- One term of the running sum: slab `s` (rounded, which changes nothing here) times matrix `s`, at `(r, j)`. -/
theorem term_at (x0 : Vec Ideal S4x10000x48 .f32) (x1 : Vec Ideal S4x48x48 .f32) (s : Fin 4)
    (inb0 : ∀ a, (![s.val, 0, 0] : Fin 3 → Nat) a + S1x10000x48.size a ≤ S4x10000x48.size a)
    (inb1 : ∀ a, (![s.val, 0, 0] : Fin 3 → Nat) a + S1x48x48.size a ≤ S4x48x48.size a) (r : Fin 10000) (j : Fin 48) :
    matmul (F := Ideal) dot_S10000x48_S48x48_S10000x48_1_0_0_1_n_n none
        (truncf .bf16 (shapeCast S10000x48 (View.ld x0 (Rect.unit (s := S4x10000x48) ![s.val, 0, 0] S1x10000x48.size inb0)) shapeCasts_S1x10000x48_S10000x48) bitsLt_bf16_f32)
        (truncf .bf16 (shapeCast S48x48 (View.ld x1 (Rect.unit (s := S4x48x48) ![s.val, 0, 0] S1x48x48.size inb1)) shapeCasts_S1x48x48_S48x48) bitsLt_bf16_f32)
        (constant S10000x48 .f32 0x00000000#32) (ix2 r j)
      = ∑ k : Fin 48, x0 (ix3 s r k) * x1 (ix3 s k j) := by
  rw [product_at]
  refine Finset.sum_congr rfl fun k _ => ?_
  rw [truncf_apply, truncf_apply, shapeCast_1ab_ab_apply, shapeCast_1ab_ab_apply, slab_at, mat_at]

theorem term0_at (x0 : Vec Ideal S4x10000x48 .f32) (x1 : Vec Ideal S4x48x48 .f32) (r : Fin 10000) (j : Fin 48) :
    matmul (F := Ideal) dot_S10000x48_S48x48_S10000x48_1_0_0_1_n_n none
        (truncf .bf16 (shapeCast S10000x48 (View.ld x0 slab0) shapeCasts_S1x10000x48_S10000x48) bitsLt_bf16_f32)
        (truncf .bf16 (shapeCast S48x48 (View.ld x1 mat0) shapeCasts_S1x48x48_S48x48) bitsLt_bf16_f32)
        (constant S10000x48 .f32 0x00000000#32) (ix2 r j)
      = ∑ k : Fin 48, x0 (ix3 (0 : Fin 4) r k) * x1 (ix3 (0 : Fin 4) k j) :=
  term_at x0 x1 (0 : Fin 4) _ _ r j
theorem term1_at (x0 : Vec Ideal S4x10000x48 .f32) (x1 : Vec Ideal S4x48x48 .f32) (r : Fin 10000) (j : Fin 48) :
    matmul (F := Ideal) dot_S10000x48_S48x48_S10000x48_1_0_0_1_n_n none
        (truncf .bf16 (shapeCast S10000x48 (View.ld x0 slab1) shapeCasts_S1x10000x48_S10000x48) bitsLt_bf16_f32)
        (truncf .bf16 (shapeCast S48x48 (View.ld x1 mat1) shapeCasts_S1x48x48_S48x48) bitsLt_bf16_f32)
        (constant S10000x48 .f32 0x00000000#32) (ix2 r j)
      = ∑ k : Fin 48, x0 (ix3 (1 : Fin 4) r k) * x1 (ix3 (1 : Fin 4) k j) :=
  term_at x0 x1 (1 : Fin 4) _ _ r j
theorem term2_at (x0 : Vec Ideal S4x10000x48 .f32) (x1 : Vec Ideal S4x48x48 .f32) (r : Fin 10000) (j : Fin 48) :
    matmul (F := Ideal) dot_S10000x48_S48x48_S10000x48_1_0_0_1_n_n none
        (truncf .bf16 (shapeCast S10000x48 (View.ld x0 slab2) shapeCasts_S1x10000x48_S10000x48) bitsLt_bf16_f32)
        (truncf .bf16 (shapeCast S48x48 (View.ld x1 mat2) shapeCasts_S1x48x48_S48x48) bitsLt_bf16_f32)
        (constant S10000x48 .f32 0x00000000#32) (ix2 r j)
      = ∑ k : Fin 48, x0 (ix3 (2 : Fin 4) r k) * x1 (ix3 (2 : Fin 4) k j) :=
  term_at x0 x1 (2 : Fin 4) _ _ r j
theorem term3_at (x0 : Vec Ideal S4x10000x48 .f32) (x1 : Vec Ideal S4x48x48 .f32) (r : Fin 10000) (j : Fin 48) :
    matmul (F := Ideal) dot_S10000x48_S48x48_S10000x48_1_0_0_1_n_n none
        (truncf .bf16 (shapeCast S10000x48 (View.ld x0 slab3) shapeCasts_S1x10000x48_S10000x48) bitsLt_bf16_f32)
        (truncf .bf16 (shapeCast S48x48 (View.ld x1 mat3) shapeCasts_S1x48x48_S48x48) bitsLt_bf16_f32)
        (constant S10000x48 .f32 0x00000000#32) (ix2 r j)
      = ∑ k : Fin 48, x0 (ix3 (3 : Fin 4) r k) * x1 (ix3 (3 : Fin 4) k j) :=
  term_at x0 x1 (3 : Fin 4) _ _ r j

/-- The block the body stores, at local row `r` and column `j`. -/
theorem stored_at (x0 : Vec Ideal S4x10000x48 .f32) (x1 : Vec Ideal S4x48x48 .f32) (x2 : Vec Ideal S1x48 .f32) (r : Fin 10000) (j : Fin 48) :
    stored (F := Ideal) x0 x1 x2 (ix2 r j)
      = ((((0 + ∑ k : Fin 48, x0 (ix3 (0 : Fin 4) r k) * x1 (ix3 (0 : Fin 4) k j))
          + ∑ k : Fin 48, x0 (ix3 (1 : Fin 4) r k) * x1 (ix3 (1 : Fin 4) k j))
          + ∑ k : Fin 48, x0 (ix3 (2 : Fin 4) r k) * x1 (ix3 (2 : Fin 4) k j))
          + ∑ k : Fin 48, x0 (ix3 (3 : Fin 4) r k) * x1 (ix3 (3 : Fin 4) k j))
        + x2 (ix2 (0 : Fin 1) j) := by
  unfold stored k0_pay1 k0_pay2 k0_pay3 k0_pay4
  dsimp only
  rw [addf_apply, addf_apply, addf_apply, addf_apply, addf_apply, broadcast_apply]
  rw [show (FloatOps.ofBits (F := Ideal) .f32 0x00000000#32 : EReal) = 0 from Ideal.ofBits_zero_f32]
  rw [term0_at, term1_at, term2_at, term3_at]
  rw [broadcastTo_1b_ab_apply, shapeCast_self, View.ld_unit_zero (S := S1x48) (funext fun a => by fin_cases a <;> rfl)]

/-- A stored block is the combination at the rows it stands for: if the stacked block is rows `base + r` of the stacked
    array, and the weights and the bias row are read where they are, then the block at `(r, j)` is `combineAt` at
    `(base + r, j)`. -/
theorem stored_is_combine (T : S4x50000x48.Idx → EReal) (W : S4x48x48.Idx → EReal) (b : S1x48.Idx → EReal)
    (x0 : Vec Ideal S4x10000x48 .f32) (x1 : Vec Ideal S4x48x48 .f32) (x2 : Vec Ideal S1x48 .f32)
    (r : Fin 10000) (j : Fin 48) (n : Fin 50000)
    (h0 : ∀ (s : Fin 4) (k : Fin 48), x0 (ix3 s r k) = T (ix3 s n k))
    (h1 : ∀ (s : Fin 4) (k : Fin 48), x1 (ix3 s k j) = W (ix3 s k j))
    (h2 : x2 (ix2 (0 : Fin 1) j) = b (ix2 (0 : Fin 1) j)) :
    stored (F := Ideal) x0 x1 x2 (ix2 r j) = combineAt T W b n j := by
  rw [stored_at]
  unfold combineAt
  simp only [h0, h1, h2]

/-! ## From blocks to the array -/

variable (m : (ℓ : Loc nD τ sig) → Buf (Elt Ideal) ℓ) (ρ : Dev nD → PrngReg)

theorem origin2 : (![0, 0] : Fin 2 → Nat) = fun _ => 0 := funext fun a => by fin_cases a <;> rfl

/-- Where each window's block sits at row block `t`: the stacked array moves along its row axis, the output along
    its row axis, the weights and the bias row stay. -/
theorem block_indices : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block `t` of the stacked array is rows `10000·t + r` of each slab. -/
theorem read_stack_block (c : Dev nD) (X : Buf (Elt Ideal) ((c : Thread nD τ).loc main_v80)) (t : Fin cfg0.N)
    (s : Fin 4) (r : Fin 10000) (k : Fin 48) (n : Fin 50000) (hn : n.val = 10000 * t.val + r.val) :
    ((cfg0.win 0).blk t).view.read (Elt Ideal) X (ix3 s r k) = X (ix3 s n k) := by
  obtain ⟨a0, a1, a2, -⟩ := block_indices t
  show X (((cfg0.win 0).blk t).view.emb (ix3 s r k)) = _
  refine congrArg X (funext fun a => Fin.ext ?_)
  match a with
  | ⟨0, _⟩ => show win0_0.index t (0 : Fin 3) * 4 + 1 * s.val = s.val; omega
  | ⟨1, _⟩ => show win0_0.index t (1 : Fin 3) * 10000 + 1 * r.val = n.val; omega
  | ⟨2, _⟩ => show win0_0.index t (2 : Fin 3) * 48 + 1 * k.val = k.val; omega

/-- The weights' one block is the whole array. -/
theorem read_weights_block (c : Dev nD) (X : Buf (Elt Ideal) ((c : Thread nD τ).loc main_arg2)) (t : Fin cfg0.N)
    (s : Fin 4) (k : Fin 48) (j : Fin 48) :
    ((cfg0.win 1).blk t).view.read (Elt Ideal) X (ix3 s k j) = X (ix3 s k j) := by
  obtain ⟨-, -, -, b0, b1, b2, -⟩ := block_indices t
  show X (((cfg0.win 1).blk t).view.emb (ix3 s k j)) = _
  refine congrArg X (funext fun a => Fin.ext ?_)
  match a with
  | ⟨0, _⟩ => show win0_1.index t (0 : Fin 3) * 4 + 1 * s.val = s.val; omega
  | ⟨1, _⟩ => show win0_1.index t (1 : Fin 3) * 48 + 1 * k.val = k.val; omega
  | ⟨2, _⟩ => show win0_1.index t (2 : Fin 3) * 48 + 1 * j.val = j.val; omega

/-- The bias row's one block is the whole row. -/
theorem read_bias_block (c : Dev nD) (X : Buf (Elt Ideal) ((c : Thread nD τ).loc main_v81)) (t : Fin cfg0.N) (j : Fin 48) :
    ((cfg0.win 2).blk t).view.read (Elt Ideal) X (ix2 (0 : Fin 1) j) = X (ix2 (0 : Fin 1) j) := by
  obtain ⟨-, -, -, -, -, -, c0, c1, -⟩ := block_indices t
  show X (((cfg0.win 2).blk t).view.emb (ix2 (0 : Fin 1) j)) = _
  refine congrArg X (funext fun a => Fin.ext ?_)
  match a with
  | ⟨0, _⟩ => show win0_2.index t (0 : Fin 2) * 1 + 1 * 0 = 0; omega
  | ⟨1, _⟩ => show win0_2.index t (1 : Fin 2) * 48 + 1 * j.val = j.val; omega

/-- An index of output block `t`, in the array. -/
theorem out_block_index (t : Fin cfg0.N) (r : Fin 10000) (j : Fin 48) (a : Fin 2) :
    ((((cfg0.win 3).blk t).view.emb (ix2 r j)) a).val = (![10000 * t.val + r.val, j.val] : Fin 2 → Nat) a := by
  obtain ⟨-, -, -, -, -, -, -, -, d0, d1⟩ := block_indices t
  match a with
  | ⟨0, _⟩ => show win0_3.index t (0 : Fin 2) * 10000 + 1 * r.val = 10000 * t.val + r.val; omega
  | ⟨1, _⟩ => show win0_3.index t (1 : Fin 2) * 48 + 1 * j.val = j.val; omega

/-- What row block `t` writes back is block `t` of the combination of the arrays as the region finds them. -/
theorem flushed_eq (c : Dev nD) (t : Fin cfg0.N) :
    (dats m 0 c).flushed 3 t = ((cfg0.win 3).blk t).view.read (Elt Ideal)
      (combine (atEntry m c main_v80) (atEntry m c main_arg2) (atEntry m c main_v81)) := by
  show (cfg0.win 3).cut (grid0.coords t) ((dats m 0 c).after 3 t) = _
  rw [after_out]
  unfold blockOut
  rw [View.canon_unit_zero origin2]
  funext y
  obtain ⟨r, j, rfl⟩ : ∃ (r : Fin 10000) (j : Fin 48), y = ix2 r j := ⟨y 0, y 1, eq_ix2 y⟩
  have ht : t.val < 5 := Nat.lt_of_lt_of_eq t.isLt N_0
  generalize hT : atEntry m c main_v80 = T
  generalize hW : atEntry m c main_arg2 = W
  generalize hB : atEntry m c main_v81 = B
  show stored (F := Ideal) (blockAt m c 0 t) (blockAt m c 1 t) (blockAt m c 2 t) (ix2 r j)
    = combine T W B (((cfg0.win 3).blk t).view.emb (ix2 r j))
  refine (stored_is_combine T W B
    (blockAt m c 0 t) (blockAt m c 1 t) (blockAt m c 2 t) r j ⟨10000 * t.val + r.val, by omega⟩ ?_ ?_ ?_).trans ?_
  · intro s k
    unfold blockAt
    rw [show atEntry m c (Pipeline.arrRef spec0 0) = T from hT]
    exact read_stack_block c T t s r k _ rfl
  · intro s k
    unfold blockAt
    rw [show atEntry m c (Pipeline.arrRef spec0 1) = W from hW]
    exact read_weights_block c W t s k j
  · unfold blockAt
    rw [show atEntry m c (Pipeline.arrRef spec0 2) = B from hB]
    exact read_bias_block c B t j
  · unfold combine
    exact congrArg₂ (combineAt T W B) (Fin.ext (out_block_index t r j 0).symm) (Fin.ext (out_block_index t r j 1).symm)

/-- An index of the output array lies in row block `t`'s block iff each coordinate is in the block's range. -/
theorem mem_block (t : Fin cfg0.N) (i : S50000x48.Idx) :
    i ∈ ((cfg0.win 3).blk t).view.set ↔ ∀ a : Fin 2, win0_3.index t a * S10000x48.size a ≤ (i a).val ∧ (i a).val < win0_3.index t a * S10000x48.size a + S10000x48.size a := by
  show i ∈ ((View.whole main_v82).slice (win0_3.rect t)).set ↔ _
  rw [View.set_slice_whole, Rect.mem_set_unit]
  exact Iff.rfl

/-- The five row blocks tile the 50000 rows: row `n` is in block `n / 10000`. -/
theorem rows_covered (i : S50000x48.Idx) :
    ∃ t : Fin cfg0.N, (cfg0.win 3).flush t = true ∧ i ∈ ((cfg0.win 3).blk t).view.set := by
  have hi0 : (i 0).val < 50000 := (i 0).isLt
  have hi1 : (i 1).val < 48 := (i 1).isLt
  let t : Fin cfg0.N := ⟨(i 0).val / 10000, by rw [show cfg0.N = 5 from N_0]; omega⟩
  obtain ⟨-, -, -, -, -, -, -, -, d0, d1⟩ := block_indices t
  have d0' : win0_3.index t (0 : Fin 2) = (i 0).val / 10000 := d0
  refine ⟨t, flush0_3 t, ?_⟩
  rw [mem_block]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 48 ≤ (i 1).val ∧ (i 1).val < win0_3.index t (1 : Fin 2) * 48 + 48; omega

/-- The output array after the run. -/
theorem final_out (c : Dev nD) :
    (dats m 0 c).arrAt 3 cfg0.N = combine (atEntry m c main_v80) (atEntry m c main_arg2) (atEntry m c main_v81) :=
  (dats m 0 c).arrAt_eq_of_cover 3 _ (fun t _ => flushed_eq m c t) rows_covered

/-- The run, read: the result array ends at the combination of what the region was handed; the four arguments end
    as launched. -/
theorem run : θ_run defs (onTc (τ := τ) (main (F := Ideal))) ⟨m, fun _ => 0, ρ⟩ fun r => ∀ c : Dev nD,
      r.2.mem ((c.tc : Thread nD τ).loc main_v82) = combine (atEntry m c main_v80) (atEntry m c main_arg2) (atEntry m c main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 3).trans (final_out m c),
      ((h c).2 main_arg0 (Pipeline.mem_restRefs_of main_arg0 (by decide) (by decide))).trans (entry_x m c),
      ((h c).2 main_arg1 (Pipeline.mem_restRefs_of main_arg1 (by decide) (by decide))).trans (entry_edges m c),
      ((h c).1 1).trans ((((dats m) 0 c).arrAt_in 1 rfl _).trans ((dats_A m c 1).trans (entry_weights m c))),
      ((h c).2 main_arg3 (Pipeline.mem_restRefs_of main_arg3 (by decide) (by decide))).trans (entry_bias m c)⟩)
    (run_main m ρ)

end Cert.KernelIdeal.Combine

end
-- ==== Proof.Stack.lean ====
import proofs.«177583_j3908420239973_1_alg».proof.Proof.KernelIdealRegion
import proofs.«177583_j3908420239973_1_alg».proof.Proof.RefRead
import Idealize.ShloMosaic.Lib.StableHlo.Run

/-!
# What the region is handed: the stacked Chebyshev terms and the bias row

The kernel's host prefix and the reference compute the Chebyshev terms `T₁ = L̂x`, `T₂ = 2·L̂T₁ − x`,
`T₃ = 2·L̂T₂ − T₁` by the same operations in the same order (the edge weights from the degrees, a gather of rows,
a scaling, a scatter-add; the only difference of spelling is where the zero that fills isolated nodes is
broadcast).  So the array the region stages as window 0 is the concatenation, along a new leading axis, of `x`
and of the reference's own three stages, and the bias row is the bias reshaped.
-/

set_option maxRecDepth 16384

noncomputable section

namespace Cert.KernelIdeal.Stack

open Cert.KernelIdeal Cert.KernelIdeal.Gen Cert.KernelIdeal.Region
open Idealize.ShloMosaic Idealize.ShloMosaic.TcCoe Idealize.SL.Sem Idealize.ShloMosaic.StableHlo

variable {F : FTy → Type} [FloatOps F]
variable (m : (ℓ : Loc nD τ sig) → Buf (Elt F) ℓ)

/-- `x` and the reference's three computed Chebyshev terms of `x` and the edge list `e`, each as one slab, stacked. -/
def stacked (x : (⟨S50000x48, .f32⟩ : BufTy).Contents (Elt F)) (e : (⟨S2x1600000, .i32⟩ : BufTy).Contents (Elt F)) :
    (⟨S4x50000x48, .f32⟩ : BufTy).Contents (Elt F) :=
  concatenate S4x50000x48 0
    [⟨S1x50000x48, broadcastInDim S1x50000x48 ![1, 2] bcast_S50000x48_S1x50000x48_1_2 x⟩,
     ⟨S1x50000x48, broadcastInDim S1x50000x48 ![1, 2] bcast_S50000x48_S1x50000x48_1_2 (Cert.ReferenceIdeal.ReadP.val_main_v45 (F := F) x e)⟩,
     ⟨S1x50000x48, broadcastInDim S1x50000x48 ![1, 2] bcast_S50000x48_S1x50000x48_1_2 (Cert.ReferenceIdeal.ReadP.val_main_v65 (F := F) x e)⟩,
     ⟨S1x50000x48, broadcastInDim S1x50000x48 ![1, 2] bcast_S50000x48_S1x50000x48_1_2 (Cert.ReferenceIdeal.ReadP.val_main_v85 (F := F) x e)⟩]
    concatenates_S1x50000x48_S1x50000x48_S1x50000x48_S1x50000x48_S4x50000x48_d0

/-- Window 2's array, as the region finds it: the bias as a row. -/
theorem entry_biasRow (c : Dev nD) :
    atEntry m c main_v81 = shapeCast S1x48 (m ((c.tc : Thread nD τ).loc main_arg3)) shapeCasts_S48_S1x48 := by
  dsimp only [atEntry]
  simp only [hostOps0, hostOps0_1, hostOps0_2, List.flatten_cons, List.flatten_nil, List.append_nil, List.cons_append, List.nil_append]
  after_results_simp
  rfl

end Cert.KernelIdeal.Stack

end
-- ==== Proof.StackEntry.lean ====
import proofs.«177583_j3908420239973_1_alg».proof.Proof.Stack

/-!
# The stacked array is what the region finds in window 0

The concatenation that builds window 0's array reads four slabs, each a Chebyshev term laid as `1 × 50000 × 48`.  Each
slab is the same chain of host operations applied to `x` and the edge list as the reference's own stage: on the left
read off the kernel's host prefix one operation at a time, on the right the reference's stages.  The two spell the zero
that fills isolated nodes' inverse square-root degree differently (the reference broadcasts it inside its outlined
select); nothing is computed.
-/

set_option maxRecDepth 16384

noncomputable section

namespace Cert.KernelIdeal.Stack

open Cert.KernelIdeal Cert.KernelIdeal.Gen Cert.KernelIdeal.Region
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- Slab 0 is `x`. -/
theorem entry_slab0 (c : Dev nD) :
    atEntry m c main_v76 = broadcastInDim S1x50000x48 ![1, 2] bcast_S50000x48_S1x50000x48_1_2 (m ((c.tc : Thread nD τ).loc main_arg0)) := by
  dsimp only [atEntry]
  simp only [hostOps0, hostOps0_1, hostOps0_2, List.flatten_cons, List.flatten_nil, List.append_nil, List.cons_append, List.nil_append]
  after_results_simp

set_option maxHeartbeats 4000000 in
/-- Slab 1 is the reference's `T₁`. -/
theorem entry_slab1 (c : Dev nD) :
    atEntry m c main_v77 = broadcastInDim S1x50000x48 ![1, 2] bcast_S50000x48_S1x50000x48_1_2
      (Cert.ReferenceIdeal.ReadP.val_main_v45 (F := F) (m ((c.tc : Thread nD τ).loc main_arg0)) (m ((c.tc : Thread nD τ).loc main_arg1))) := by
  dsimp only [atEntry]
  simp only [hostOps0, hostOps0_1, hostOps0_2, List.flatten_cons, List.flatten_nil, List.append_nil, List.cons_append, List.nil_append]
  after_results_simp
  rfl

set_option maxHeartbeats 4000000 in
/-- Slab 2 is the reference's `T₂`. -/
theorem entry_slab2 (c : Dev nD) :
    atEntry m c main_v78 = broadcastInDim S1x50000x48 ![1, 2] bcast_S50000x48_S1x50000x48_1_2
      (Cert.ReferenceIdeal.ReadP.val_main_v65 (F := F) (m ((c.tc : Thread nD τ).loc main_arg0)) (m ((c.tc : Thread nD τ).loc main_arg1))) := by
  dsimp only [atEntry]
  simp only [hostOps0, hostOps0_1, hostOps0_2, List.flatten_cons, List.flatten_nil, List.append_nil, List.cons_append, List.nil_append]
  after_results_simp
  rfl

set_option maxHeartbeats 4000000 in
/-- Slab 3 is the reference's `T₃`. -/
theorem entry_slab3 (c : Dev nD) :
    atEntry m c main_v79 = broadcastInDim S1x50000x48 ![1, 2] bcast_S50000x48_S1x50000x48_1_2
      (Cert.ReferenceIdeal.ReadP.val_main_v85 (F := F) (m ((c.tc : Thread nD τ).loc main_arg0)) (m ((c.tc : Thread nD τ).loc main_arg1))) := by
  dsimp only [atEntry]
  simp only [hostOps0, hostOps0_1, hostOps0_2, List.flatten_cons, List.flatten_nil, List.append_nil, List.cons_append, List.nil_append]
  after_results_simp
  rfl

set_option maxHeartbeats 4000000 in
/-- Window 0's array is the concatenation of the four slabs as the region finds THEM: the concatenation is the
    last operation but one, the last writes another buffer, and neither writes a slab. -/
theorem entry_concat (c : Dev nD) :
    atEntry m c main_v80 = concatenate S4x50000x48 0
      [⟨S1x50000x48, atEntry m c main_v76⟩, ⟨S1x50000x48, atEntry m c main_v77⟩, ⟨S1x50000x48, atEntry m c main_v78⟩, ⟨S1x50000x48, atEntry m c main_v79⟩]
      concatenates_S1x50000x48_S1x50000x48_S1x50000x48_S1x50000x48_S4x50000x48_d0 := by
  dsimp only [atEntry]
  simp only [hostOps0, hostOps0_1, hostOps0_2, List.flatten_cons, List.flatten_nil, List.append_nil, List.cons_append, List.nil_append]
  simp only [after_cons, after_nil]
  rw [reshape_result_ne (r := main_v80)]; rotate_left; decide
  rw [nary4_result]
  rw [reshape_result_ne (r := main_v76)]; rotate_left; decide
  rw [reshape_result_ne (r := main_v77)]; rotate_left; decide
  rw [reshape_result_ne (r := main_v78)]; rotate_left; decide
  rw [reshape_result_ne (r := main_v79)]; rotate_left; decide
  rw [nary_result_ne (r := main_v76)]; rotate_left; decide
  rw [nary_result_ne (r := main_v77)]; rotate_left; decide
  rw [nary_result_ne (r := main_v78)]; rotate_left; decide
  rw [nary_result_ne (r := main_v79)]; rotate_left; decide
  rfl

/-- Window 0's array, as the region finds it. -/
theorem entry_stack (c : Dev nD) :
    atEntry m c main_v80 = stacked (m ((c.tc : Thread nD τ).loc main_arg0)) (m ((c.tc : Thread nD τ).loc main_arg1)) := by
  rw [entry_concat, entry_slab0, entry_slab1, entry_slab2, entry_slab3]
  rfl

end Cert.KernelIdeal.Stack

end
-- ==== Proof.Bridge.lean ====
import proofs.«177583_j3908420239973_1_alg».proof.Proof.KernelIdealValue
import proofs.«177583_j3908420239973_1_alg».proof.Proof.Stack

/-!
# The reference computes the same combination

The reference multiplies each Chebyshev term by its weight matrix on the host and adds the four products and the
bias; read at row `n` and column `j` that is the same five-term sum the kernel's region leaves, without the leading
zero the kernel's running sum starts from.  The stacked array read at slab `s` is the `s`-th term, the bias row read
at column `j` is the bias at `j`.
-/

set_option maxRecDepth 16384

noncomputable section

namespace Cert.Bridge

open Idealize.ShloMosaic Idealize.ShloMosaic.TcCoe Idealize.SL.Sem
open Idealize.ShloMosaic.ValueIdx
open Cert.KernelIdeal (S50000x48 S2x1600000 S4x48x48 S48 S1x48 S4x50000x48 S1x50000x48)
open Cert.KernelIdeal.Combine Cert.KernelIdeal.Stack
open Cert.ReferenceIdeal.ReadP

/-! ## Reading the stack and the bias row -/

/-- A matrix laid as one slab, read back. -/
theorem slab_read {α : Type} (u : S50000x48.Idx → α) (hb : S50000x48.BroadcastsInDim S1x50000x48 (![1, 2] : Fin 2 → Fin S1x50000x48.rank))
    (n : Fin 50000) (k : Fin 48) :
    broadcastInDim S1x50000x48 ![1, 2] hb u (ix3 (0 : Fin 1) n k) = u (ix2 n k) :=
  broadcastInDim_apply _ hb u (ix3 (0 : Fin 1) n k) (ix2 n k) (fun a => match a with
    | ⟨0, _⟩ => by show n.val = if (50000 : Nat) = 1 then 0 else n.val; rw [if_neg (by decide)]
    | ⟨1, _⟩ => by show k.val = if (48 : Nat) = 1 then 0 else k.val; rw [if_neg (by decide)])

/-- Four slabs stacked along a new leading axis, read at slab `s`: the `s`-th. -/
theorem stack_read0 {α : Type} (v0 v1 v2 v3 : S1x50000x48.Idx → α)
    (h : Shape.Concatenates [S1x50000x48, S1x50000x48, S1x50000x48, S1x50000x48] S4x50000x48 0) (n : Fin 50000) (k : Fin 48) :
    concatenate S4x50000x48 0 [⟨S1x50000x48, v0⟩, ⟨S1x50000x48, v1⟩, ⟨S1x50000x48, v2⟩, ⟨S1x50000x48, v3⟩] h (ix3 (0 : Fin 4) n k)
      = v0 (ix3 (0 : Fin 1) n k) :=
  concatenate_apply_piece (0 : Fin S4x50000x48.rank) [⟨S1x50000x48, v0⟩, ⟨S1x50000x48, v1⟩, ⟨S1x50000x48, v2⟩, ⟨S1x50000x48, v3⟩] h
    (ix3 (0 : Fin 4) n k) 0 (by show 0 < 4; omega) S1x50000x48 v0 rfl rfl 0 rfl (ix3 (0 : Fin 1) n k)
    (fun b hb => match b with
      | ⟨0, _⟩ => absurd rfl hb
      | ⟨1, _⟩ => rfl
      | ⟨2, _⟩ => rfl) rfl
theorem stack_read1 {α : Type} (v0 v1 v2 v3 : S1x50000x48.Idx → α)
    (h : Shape.Concatenates [S1x50000x48, S1x50000x48, S1x50000x48, S1x50000x48] S4x50000x48 0) (n : Fin 50000) (k : Fin 48) :
    concatenate S4x50000x48 0 [⟨S1x50000x48, v0⟩, ⟨S1x50000x48, v1⟩, ⟨S1x50000x48, v2⟩, ⟨S1x50000x48, v3⟩] h (ix3 (1 : Fin 4) n k)
      = v1 (ix3 (0 : Fin 1) n k) :=
  concatenate_apply_piece (0 : Fin S4x50000x48.rank) [⟨S1x50000x48, v0⟩, ⟨S1x50000x48, v1⟩, ⟨S1x50000x48, v2⟩, ⟨S1x50000x48, v3⟩] h
    (ix3 (1 : Fin 4) n k) 1 (by show 1 < 4; omega) S1x50000x48 v1 rfl rfl 1 rfl (ix3 (0 : Fin 1) n k)
    (fun b hb => match b with
      | ⟨0, _⟩ => absurd rfl hb
      | ⟨1, _⟩ => rfl
      | ⟨2, _⟩ => rfl) rfl
theorem stack_read2 {α : Type} (v0 v1 v2 v3 : S1x50000x48.Idx → α)
    (h : Shape.Concatenates [S1x50000x48, S1x50000x48, S1x50000x48, S1x50000x48] S4x50000x48 0) (n : Fin 50000) (k : Fin 48) :
    concatenate S4x50000x48 0 [⟨S1x50000x48, v0⟩, ⟨S1x50000x48, v1⟩, ⟨S1x50000x48, v2⟩, ⟨S1x50000x48, v3⟩] h (ix3 (2 : Fin 4) n k)
      = v2 (ix3 (0 : Fin 1) n k) :=
  concatenate_apply_piece (0 : Fin S4x50000x48.rank) [⟨S1x50000x48, v0⟩, ⟨S1x50000x48, v1⟩, ⟨S1x50000x48, v2⟩, ⟨S1x50000x48, v3⟩] h
    (ix3 (2 : Fin 4) n k) 2 (by show 2 < 4; omega) S1x50000x48 v2 rfl rfl 2 rfl (ix3 (0 : Fin 1) n k)
    (fun b hb => match b with
      | ⟨0, _⟩ => absurd rfl hb
      | ⟨1, _⟩ => rfl
      | ⟨2, _⟩ => rfl) rfl
theorem stack_read3 {α : Type} (v0 v1 v2 v3 : S1x50000x48.Idx → α)
    (h : Shape.Concatenates [S1x50000x48, S1x50000x48, S1x50000x48, S1x50000x48] S4x50000x48 0) (n : Fin 50000) (k : Fin 48) :
    concatenate S4x50000x48 0 [⟨S1x50000x48, v0⟩, ⟨S1x50000x48, v1⟩, ⟨S1x50000x48, v2⟩, ⟨S1x50000x48, v3⟩] h (ix3 (3 : Fin 4) n k)
      = v3 (ix3 (0 : Fin 1) n k) :=
  concatenate_apply_piece (0 : Fin S4x50000x48.rank) [⟨S1x50000x48, v0⟩, ⟨S1x50000x48, v1⟩, ⟨S1x50000x48, v2⟩, ⟨S1x50000x48, v3⟩] h
    (ix3 (3 : Fin 4) n k) 3 (by show 3 < 4; omega) S1x50000x48 v3 rfl rfl 3 rfl (ix3 (0 : Fin 1) n k)
    (fun b hb => match b with
      | ⟨0, _⟩ => absurd rfl hb
      | ⟨1, _⟩ => rfl
      | ⟨2, _⟩ => rfl) rfl

/-- Matrix `s` of the weights as the reference slices and reshapes it, read at `(k, j)`. -/
theorem weights_slice0 {F : FTy → Type} [FloatOps F] (x2 : (⟨S4x48x48, .f32⟩ : BufTy).Contents (Elt F)) (k j : Fin 48) :
    val_main_v31 (F := F) x2 (ix2 k j) = x2 (ix3 (0 : Fin 4) k j) := by
  rw [val_main_v31_apply, val_main_v30_apply]
  refine congrArg x2 (funext fun a => Fin.ext ?_)
  have hk : k.val < 48 := k.isLt
  have hj : j.val < 48 := j.isLt
  match a with
  | ⟨0, _⟩ => rfl
  | ⟨1, _⟩ => show (k.val * 48 + j.val) / 48 % 48 = k.val; omega
  | ⟨2, _⟩ => show (k.val * 48 + j.val) % 48 = j.val; omega
theorem weights_slice1 {F : FTy → Type} [FloatOps F] (x2 : (⟨S4x48x48, .f32⟩ : BufTy).Contents (Elt F)) (k j : Fin 48) :
    val_main_v47 (F := F) x2 (ix2 k j) = x2 (ix3 (1 : Fin 4) k j) := by
  rw [val_main_v47_apply, val_main_v46_apply]
  refine congrArg x2 (funext fun a => Fin.ext ?_)
  have hk : k.val < 48 := k.isLt
  have hj : j.val < 48 := j.isLt
  match a with
  | ⟨0, _⟩ => rfl
  | ⟨1, _⟩ => show (k.val * 48 + j.val) / 48 % 48 = k.val; omega
  | ⟨2, _⟩ => show (k.val * 48 + j.val) % 48 = j.val; omega
theorem weights_slice2 {F : FTy → Type} [FloatOps F] (x2 : (⟨S4x48x48, .f32⟩ : BufTy).Contents (Elt F)) (k j : Fin 48) :
    val_main_v67 (F := F) x2 (ix2 k j) = x2 (ix3 (2 : Fin 4) k j) := by
  rw [val_main_v67_apply, val_main_v66_apply]
  refine congrArg x2 (funext fun a => Fin.ext ?_)
  have hk : k.val < 48 := k.isLt
  have hj : j.val < 48 := j.isLt
  match a with
  | ⟨0, _⟩ => rfl
  | ⟨1, _⟩ => show (k.val * 48 + j.val) / 48 % 48 = k.val; omega
  | ⟨2, _⟩ => show (k.val * 48 + j.val) % 48 = j.val; omega
theorem weights_slice3 {F : FTy → Type} [FloatOps F] (x2 : (⟨S4x48x48, .f32⟩ : BufTy).Contents (Elt F)) (k j : Fin 48) :
    val_main_v87 (F := F) x2 (ix2 k j) = x2 (ix3 (3 : Fin 4) k j) := by
  rw [val_main_v87_apply, val_main_v86_apply]
  refine congrArg x2 (funext fun a => Fin.ext ?_)
  have hk : k.val < 48 := k.isLt
  have hj : j.val < 48 := j.isLt
  match a with
  | ⟨0, _⟩ => rfl
  | ⟨1, _⟩ => show (k.val * 48 + j.val) / 48 % 48 = k.val; omega
  | ⟨2, _⟩ => show (k.val * 48 + j.val) % 48 = j.val; omega

/-- The bias broadcast over the rows, and the bias as a row, read at column `j`. -/
theorem bias_read {F : FTy → Type} [FloatOps F] (x3 : (⟨S48, .f32⟩ : BufTy).Contents (Elt F)) (n : Fin 50000) (j : Fin 48) :
    val_main_v91 (F := F) x3 (ix2 n j) = shapeCast S1x48 x3 Cert.KernelIdeal.Gen.shapeCasts_S48_S1x48 (ix2 (0 : Fin 1) j) := by
  rw [val_main_v91_apply, val_main_v90_apply, shapeCast_a_1a_apply]
  exact congrArg x3 (funext fun a => Fin.ext (by match a with | ⟨0, _⟩ => rfl))

/-! ## The reference's result -/

/-- The reference's result, at `Ideal`, is the combination of the stacked terms, the weights and the bias row. -/
theorem reference_is_combine (x0 : (⟨S50000x48, .f32⟩ : BufTy).Contents (Elt Ideal)) (x1 : (⟨S2x1600000, .i32⟩ : BufTy).Contents (Elt Ideal))
    (x2 : (⟨S4x48x48, .f32⟩ : BufTy).Contents (Elt Ideal)) (x3 : (⟨S48, .f32⟩ : BufTy).Contents (Elt Ideal)) :
    val_main_v92 (F := Ideal) x0 x1 x2 x3
      = combine (stacked (F := Ideal) x0 x1) x2 (shapeCast S1x48 x3 Cert.KernelIdeal.Gen.shapeCasts_S48_S1x48) := by
  funext i
  obtain ⟨n, j, rfl⟩ : ∃ (n : Fin 50000) (j : Fin 48), i = ix2 n j := ⟨i 0, i 1, eq_ix2 i⟩
  rw [val_main_v92_apply, val_main_v89_apply, val_main_v69_apply, val_main_v49_apply, val_main_v32_apply, val_main_v48_apply,
    val_main_v68_apply, val_main_v88_apply, bias_read]
  have p0 : ∀ k : Fin 48, x0 (lidx_main_v32 (ix2 n j) k) * val_main_v31 (F := Ideal) x2 (ridx_main_v32 (ix2 n j) k)
      = stacked (F := Ideal) x0 x1 (ix3 (0 : Fin 4) n k) * x2 (ix3 (0 : Fin 4) k j) := fun k => by
    unfold stacked
    rw [stack_read0, slab_read]
    exact congrArg₂ (· * ·) (congrArg x0 (funext fun a => Fin.ext (by match a with | ⟨0, _⟩ => rfl | ⟨1, _⟩ => rfl)))
      ((congrArg (val_main_v31 (F := Ideal) x2) (funext fun a => Fin.ext (by match a with | ⟨0, _⟩ => rfl | ⟨1, _⟩ => rfl))).trans (weights_slice0 x2 k j))
  have p1 : ∀ k : Fin 48, val_main_v45 (F := Ideal) x0 x1 (lidx_main_v48 (ix2 n j) k) * val_main_v47 (F := Ideal) x2 (ridx_main_v48 (ix2 n j) k)
      = stacked (F := Ideal) x0 x1 (ix3 (1 : Fin 4) n k) * x2 (ix3 (1 : Fin 4) k j) := fun k => by
    unfold stacked
    rw [stack_read1, slab_read]
    exact congrArg₂ (· * ·) (congrArg (val_main_v45 (F := Ideal) x0 x1) (funext fun a => Fin.ext (by match a with | ⟨0, _⟩ => rfl | ⟨1, _⟩ => rfl)))
      ((congrArg (val_main_v47 (F := Ideal) x2) (funext fun a => Fin.ext (by match a with | ⟨0, _⟩ => rfl | ⟨1, _⟩ => rfl))).trans (weights_slice1 x2 k j))
  have p2 : ∀ k : Fin 48, val_main_v65 (F := Ideal) x0 x1 (lidx_main_v68 (ix2 n j) k) * val_main_v67 (F := Ideal) x2 (ridx_main_v68 (ix2 n j) k)
      = stacked (F := Ideal) x0 x1 (ix3 (2 : Fin 4) n k) * x2 (ix3 (2 : Fin 4) k j) := fun k => by
    unfold stacked
    rw [stack_read2, slab_read]
    exact congrArg₂ (· * ·) (congrArg (val_main_v65 (F := Ideal) x0 x1) (funext fun a => Fin.ext (by match a with | ⟨0, _⟩ => rfl | ⟨1, _⟩ => rfl)))
      ((congrArg (val_main_v67 (F := Ideal) x2) (funext fun a => Fin.ext (by match a with | ⟨0, _⟩ => rfl | ⟨1, _⟩ => rfl))).trans (weights_slice2 x2 k j))
  have p3 : ∀ k : Fin 48, val_main_v85 (F := Ideal) x0 x1 (lidx_main_v88 (ix2 n j) k) * val_main_v87 (F := Ideal) x2 (ridx_main_v88 (ix2 n j) k)
      = stacked (F := Ideal) x0 x1 (ix3 (3 : Fin 4) n k) * x2 (ix3 (3 : Fin 4) k j) := fun k => by
    unfold stacked
    rw [stack_read3, slab_read]
    exact congrArg₂ (· * ·) (congrArg (val_main_v85 (F := Ideal) x0 x1) (funext fun a => Fin.ext (by match a with | ⟨0, _⟩ => rfl | ⟨1, _⟩ => rfl)))
      ((congrArg (val_main_v87 (F := Ideal) x2) (funext fun a => Fin.ext (by match a with | ⟨0, _⟩ => rfl | ⟨1, _⟩ => rfl))).trans (weights_slice3 x2 k j))
  rw [Finset.sum_congr rfl fun k _ => p0 k, Finset.sum_congr rfl fun k _ => p1 k, Finset.sum_congr rfl fun k _ => p2 k,
    Finset.sum_congr rfl fun k _ => p3 k]
  unfold combine combineAt
  rw [zero_add]
  rfl

end Cert.Bridge

end
-- ==== Proof.lean ====
/-
  Chebyshev graph convolution of order 4: `out = T₀·W₀ + T₁·W₁ + T₂·W₂ + T₃·W₃ + bias` with `T₀ = x`, `T₁ = L̂x`,
  `T₂ = 2·L̂T₁ − T₀`, `T₃ = 2·L̂T₂ − T₁`, `L̂` the rescaled normalised Laplacian of the edge list applied by gather,
  scaling and scatter-add.

  Both programs compute the three terms on the host by the same operations (Proof/Stack.lean, Proof/StackEntry.lean).  The
  kernel stacks the four terms and hands them, the weights and the bias row to ONE region over five blocks of
  10000 rows, whose body sums the four block-by-matrix products from zero and adds the bias; the reference multiplies
  whole arrays on the host and adds.  Over the extended reals a product of matrices is the plain sum over the
  contracted axis on both sides and rounding to bf16 on the way into the matrix unit is the identity, so both results
  are, at row `n` and column `j`, the same five-term sum; the kernel's has a leading `0 +` (Proof/KernelIdealValue.lean,
  Proof/Bridge.lean).  No finiteness is used: nothing is distributed or cancelled.

  The frames: the region's launch and its body's triple, at any float instance (Proof/KernelIdealRegion.lean for the
  idealized program, Proof/KernelRegion.lean for the word-level one); the reference has no region, its frame is its
  run with the result dropped.  The idealization rewrote nothing, so `preserves` is `True`.
-/
import proofs.«177583_j3908420239973_1_alg».proof.Defs
import proofs.«177583_j3908420239973_1_alg».proof.Proof.Gen.Kernel
import proofs.«177583_j3908420239973_1_alg».proof.Proof.Gen.KernelIdeal
import proofs.«177583_j3908420239973_1_alg».proof.Proof.Gen.ReferenceIdeal
import proofs.«177583_j3908420239973_1_alg».proof.Proof.Gen.Pre_finite_inputs
import proofs.«177583_j3908420239973_1_alg».proof.Proof.KernelRegion
import proofs.«177583_j3908420239973_1_alg».proof.Proof.KernelIdealValue
import proofs.«177583_j3908420239973_1_alg».proof.Proof.StackEntry
import proofs.«177583_j3908420239973_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Region.frame m ρ

theorem frame_kernelIdeal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the combination of the stacked terms, the weights and the bias row of the (shared) arguments. -/
theorem algebraic : Cert.algebraic_KernelIdeal_ReferenceIdeal := by
  intro m ρ m' ρ' _ hagree
  refine ⟨fun c => Cert.KernelIdeal.Combine.combine
      (Cert.KernelIdeal.Stack.stacked (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (shapeCast Cert.KernelIdeal.S1x48 (m ((c.tc : Thread Cert.KernelIdeal.nD Cert.KernelIdeal.τ).loc Cert.KernelIdeal.main_arg3))
        Cert.KernelIdeal.Gen.shapeCasts_S48_S1x48), ?_, ?_⟩
  · refine (θ_run Cert.KernelIdeal.defs _ _).mono (fun r h c => ⟨((h c).1).trans ?_, (h c).2⟩) (Cert.KernelIdeal.Combine.run m ρ)
    exact congr (congrArg₂ Cert.KernelIdeal.Combine.combine (Cert.KernelIdeal.Stack.entry_stack m c) (Cert.KernelIdeal.Region.entry_weights m c))
      (Cert.KernelIdeal.Stack.entry_biasRow m c)
  · refine (θ_run Cert.ReferenceIdeal.defs _ _).mono (fun r h c => ⟨((h c).1).trans ?_, (h c).2⟩)
      (Cert.ReferenceIdeal.ValueP.run (F := Ideal) m' ρ')
    rw [Cert.ReferenceIdeal.ReadP.val_main_v92_eq, Cert.Bridge.reference_is_combine, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
